-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2048x4096 .f32) (main_arg1 : FVec F S4096x4096 .f32) (main_arg2 : FVec F S4096 .f32) (main_arg3 : FVec F S4096x4096 .f32) (main_arg4 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x4096.size a
  hwx0_0 : ∀ i : grid0.Coords, EltTy.bits .f32 = 32 ∨ (Rect.block (s := S2048x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S2048x4096.size a
  hwx0_5 : ∀ i : grid0.Coords, EltTy.bits .f32 = 32 ∨ (Rect.block (s := S2048x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.BlockedDot.lean ====
/-
  The mathematics of a noisy linear layer, with no program in sight.

  For x : [2048, 4096], w, wn : [4096, 4096], b, bn : [4096] over the extended reals the layer's value at (r, o) is

      (∑ k < 4096, x r k * (w o k + wn o k)) + (b o + bn o).

  A kernel that walks the contraction axis in 8 stretches of 512 keeps a running sum: nothing before the first
  stretch, and after stretch a the sum of the first 512 * (a + 1) terms. Only associativity and commutativity of +
  on the extended reals are used (no term is moved across a product), so nothing here asks the entries to be finite.

  Entries are read at natural-number coordinates (`at2`, `at1`: the entry when the coordinates are in range, 0
  otherwise), so that "row 1024 * i + p" is a plain natural number and no statement carries a bound proof.
-/
import Idealize.ShloMosaic.PureOps.Ideal
import Idealize.ShloMosaic.Lib.ValueIdx
import Mathlib.Data.Fintype.BigOperators
import Mathlib.Algebra.BigOperators.Group.Finset.Basic

noncomputable section

open scoped BigOperators

namespace Cert.NoisyLinear

open Idealize.ShloMosaic Idealize.ShloMosaic.ValueIdx

/-- A rank-2 array read at natural coordinates: the entry when both are in range, `0` otherwise. -/
def at2 {n0 n1 : Nat} (f : (⟨2, ![n0, n1]⟩ : Shape).Idx → EReal) (r c : ℕ) : EReal :=
  if h : r < n0 ∧ c < n1 then f (ix2 ⟨r, h.1⟩ ⟨c, h.2⟩) else 0

/-- A rank-1 array read at a natural coordinate. -/
def at1 {n : Nat} (f : (⟨1, ![n]⟩ : Shape).Idx → EReal) (c : ℕ) : EReal :=
  if h : c < n then f (ix1 ⟨c, h⟩) else 0

/-- An entry IS the read at its coordinates' values. -/
theorem at2_of_val {n0 n1 : Nat} (f : (⟨2, ![n0, n1]⟩ : Shape).Idx → EReal) (i : (⟨2, ![n0, n1]⟩ : Shape).Idx)
    (r c : ℕ) (h0 : (i 0).val = r) (h1 : (i 1).val = c) : f i = at2 f r c := by
  subst h0 h1
  unfold at2
  rw [dif_pos ⟨(i 0).isLt, (i 1).isLt⟩]
  exact congrArg f (eq_ix2 i)

theorem at1_of_val {n : Nat} (f : (⟨1, ![n]⟩ : Shape).Idx → EReal) (i : (⟨1, ![n]⟩ : Shape).Idx)
    (c : ℕ) (h0 : (i 0).val = c) : f i = at1 f c := by
  subst h0
  unfold at1
  rw [dif_pos (show (i 0).val < n from (i 0).isLt)]
  exact congrArg f (eq_ix1 i)

variable (x : (⟨2, ![2048, 4096]⟩ : Shape).Idx → EReal) (w wn : (⟨2, ![4096, 4096]⟩ : Shape).Idx → EReal)
  (b bn : (⟨1, ![4096]⟩ : Shape).Idx → EReal)

/-- The k-th term of the contraction at output (r, o): the input entry times the noisy weight. -/
def term (r o k : ℕ) : EReal := at2 x r k * (at2 w o k + at2 wn o k)

/-- The sum of the first `512 * n` terms: what has been accumulated after `n` stretches of the contraction axis. -/
def partialDot (r o n : ℕ) : EReal := ∑ k ∈ Finset.range (512 * n), term x w wn r o k

/-- The contribution of stretch `a` alone: its 512 terms. -/
def stretch (r o a : ℕ) : EReal := ∑ k : Fin 512, term x w wn r o (512 * a + k.val)

theorem partialDot_zero (r o : ℕ) : partialDot x w wn r o 0 = 0 := by
  unfold partialDot; simp

/-- One more stretch extends the running sum by that stretch's terms. -/
theorem partialDot_succ (r o n : ℕ) :
    partialDot x w wn r o (n + 1) = partialDot x w wn r o n + stretch x w wn r o n := by
  unfold partialDot stretch
  rw [show 512 * (n + 1) = 512 * n + 512 from by ring, Finset.sum_range_add,
    Fin.sum_univ_eq_sum_range (fun k => term x w wn r o (512 * n + k)) 512]

/-- The first stretch starts from nothing. -/
theorem partialDot_one (r o : ℕ) : partialDot x w wn r o 1 = 0 + stretch x w wn r o 0 := by
  rw [partialDot_succ, partialDot_zero]

/-- THE LAYER: the value at each output index. -/
def layer : (⟨2, ![2048, 4096]⟩ : Shape).Idx → EReal := fun i =>
  (∑ k : Fin 4096, x (ix2 (i 0) k) * (w (ix2 (i 1) k) + wn (ix2 (i 1) k))) + (b (ix1 (i 1)) + bn (ix1 (i 1)))

/-- All eight stretches make the whole contraction. -/
theorem partialDot_eight (r : Fin 2048) (o : Fin 4096) :
    partialDot x w wn r.val o.val 8 = ∑ k : Fin 4096, x (ix2 r k) * (w (ix2 o k) + wn (ix2 o k)) := by
  unfold partialDot
  rw [show 512 * 8 = 4096 from rfl, ← Fin.sum_univ_eq_sum_range (fun k => term x w wn r.val o.val k) 4096]
  refine Finset.sum_congr rfl fun k _ => ?_
  unfold term
  rw [← at2_of_val x (ix2 r k) r.val k.val rfl rfl, ← at2_of_val w (ix2 o k) o.val k.val rfl rfl,
    ← at2_of_val wn (ix2 o k) o.val k.val rfl rfl]

/-- So the running sum after the last stretch, plus the noisy bias, is the layer. -/
theorem layer_eq (r : Fin 2048) (o : Fin 4096) :
    partialDot x w wn r.val o.val 8 + (at1 b o.val + at1 bn o.val) = layer x w wn b bn (ix2 r o) := by
  show _ = (∑ k : Fin 4096, x (ix2 r k) * (w (ix2 o k) + wn (ix2 o k))) + (b (ix1 o) + bn (ix1 o))
  rw [partialDot_eight, ← at1_of_val b (ix1 o) o.val rfl, ← at1_of_val bn (ix1 o) o.val rfl]

end Cert.NoisyLinear

end
-- ==== Proof.BlockRead.lean ====
/-
  Where the kernel's windows read. The grid has 64 points; point t works on output tile (t / 32, t / 8 % 4) and on
  stretch t % 8 of the contraction axis. At that point
    * the input block's entry (p, k) is the input's entry (1024 * (t / 32) + p, 512 * (t % 8) + k);
    * the weight block's and the noise block's entry (q, k) is the array's entry (1024 * (t / 8 % 4) + q, 512 * (t % 8) + k);
    * the bias row block's and the bias noise row block's entry (0, q) is the vector's entry 1024 * (t / 8 % 4) + q
      (the row is the vector itself, recast to one row).
-/
import proofs.«105921_j31825707664106_1_alg».proof.Proof.Gen.KernelIdeal.Frame
import proofs.«105921_j31825707664106_1_alg».proof.Proof.BlockedDot
import Idealize.ShloMosaic.Lib.Pipeline.Value
import Idealize.ShloMosaic.Lib.StableHlo.Run

noncomputable section

namespace Cert.KernelIdeal.BlockRead

open Cert.KernelIdeal Cert.KernelIdeal.Gen Idealize.ShloMosaic Idealize.ShloMosaic.TcCoe Idealize.SL.Sem
open Idealize.ShloMosaic.ValueIdx Cert.NoisyLinear

variable (m : (ℓ : Loc nD τ sig) → Buf (Elt Ideal) ℓ)

/-- The printed index maps in closed form, decided over the 64 grid points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = 0 ∧ win0_3.index t (1 : Fin 2) = t.val / 8 % 4
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-- The arguments, as arrays of extended reals. -/
abbrev xArr (c : Dev nD) : (⟨2, ![2048, 4096]⟩ : Shape).Idx → EReal := m ((c : Thread nD τ).loc main_arg0)
abbrev wArr (c : Dev nD) : (⟨2, ![4096, 4096]⟩ : Shape).Idx → EReal := m ((c : Thread nD τ).loc main_arg1)
abbrev bArr (c : Dev nD) : (⟨1, ![4096]⟩ : Shape).Idx → EReal := m ((c : Thread nD τ).loc main_arg2)
abbrev wnArr (c : Dev nD) : (⟨2, ![4096, 4096]⟩ : Shape).Idx → EReal := m ((c : Thread nD τ).loc main_arg3)
abbrev bnArr (c : Dev nD) : (⟨1, ![4096]⟩ : Shape).Idx → EReal := m ((c : Thread nD τ).loc main_arg4)

/-- The five input blocks at a point, at their literal types. -/
abbrev xBlk (c : Dev nD) (t : Fin cfg0.N) : Vec Ideal S1024x512 .f32 := iblk m c 0 t
abbrev wBlk (c : Dev nD) (t : Fin cfg0.N) : Vec Ideal S1024x512 .f32 := iblk m c 1 t
abbrev wnBlk (c : Dev nD) (t : Fin cfg0.N) : Vec Ideal S1024x512 .f32 := iblk m c 2 t
abbrev bBlk (c : Dev nD) (t : Fin cfg0.N) : Vec Ideal S1x1024 .f32 := iblk m c 3 t
abbrev bnBlk (c : Dev nD) (t : Fin cfg0.N) : Vec Ideal S1x1024 .f32 := iblk m c 4 t

theorem xBlk_apply (c : Dev nD) (t : Fin cfg0.N) (p : Fin 1024) (k : Fin 512) :
    xBlk m c t (ix2 p k) = at2 (xArr m c) (1024 * (t.val / 32) + p.val) (512 * (t.val % 8) + k.val) := by
  obtain ⟨e0, e1, -⟩ := index_facts t
  show iblk m c 0 t (ix2 p k) = _
  unfold iblk
  rw [View.read_apply]
  show V m c main_arg0 _ = _
  rw [V_main_arg0]
  refine at2_of_val (xArr m c) _ _ _ ?_ ?_
  · show win0_0.index t (0 : Fin 2) * 1024 + 1 * p.val = _
    rw [e0]; omega
  · show win0_0.index t (1 : Fin 2) * 512 + 1 * k.val = _
    rw [e1]; omega

theorem wBlk_apply (c : Dev nD) (t : Fin cfg0.N) (q : Fin 1024) (k : Fin 512) :
    wBlk m c t (ix2 q k) = at2 (wArr m c) (1024 * (t.val / 8 % 4) + q.val) (512 * (t.val % 8) + k.val) := by
  obtain ⟨-, -, e0, e1, -⟩ := index_facts t
  show iblk m c 1 t (ix2 q k) = _
  unfold iblk
  rw [View.read_apply]
  show V m c main_arg1 _ = _
  rw [V_main_arg1]
  refine at2_of_val (wArr m c) _ _ _ ?_ ?_
  · show win0_1.index t (0 : Fin 2) * 1024 + 1 * q.val = _
    rw [e0]; omega
  · show win0_1.index t (1 : Fin 2) * 512 + 1 * k.val = _
    rw [e1]; omega

theorem wnBlk_apply (c : Dev nD) (t : Fin cfg0.N) (q : Fin 1024) (k : Fin 512) :
    wnBlk m c t (ix2 q k) = at2 (wnArr m c) (1024 * (t.val / 8 % 4) + q.val) (512 * (t.val % 8) + k.val) := by
  obtain ⟨-, -, -, -, e0, e1, -⟩ := index_facts t
  show iblk m c 2 t (ix2 q k) = _
  unfold iblk
  rw [View.read_apply]
  show V m c main_arg3 _ = _
  rw [V_main_arg3]
  refine at2_of_val (wnArr m c) _ _ _ ?_ ?_
  · show win0_2.index t (0 : Fin 2) * 1024 + 1 * q.val = _
    rw [e0]; omega
  · show win0_2.index t (1 : Fin 2) * 512 + 1 * k.val = _
    rw [e1]; omega

/-- Before the region the host recasts the bias vector to one row, -/
theorem biasRow_eq (c : Dev nD) :
    (V m c main_v0 : S1x4096.Idx → EReal) = shapeCast S1x4096 (bArr m c) shapeCasts_S4096_S1x4096 := by
  dsimp only [V, hostOps0]; after_results; rfl

/-- and the bias noise vector likewise. -/
theorem biasNoiseRow_eq (c : Dev nD) :
    (V m c main_v1 : S1x4096.Idx → EReal) = shapeCast S1x4096 (bnArr m c) shapeCasts_S4096_S1x4096 := by
  dsimp only [V, hostOps0]; after_results; rfl

/-- A vector recast to one row, read at column n, is the vector's entry n. -/
theorem row_apply (v : (⟨1, ![4096]⟩ : Shape).Idx → EReal) (j : S1x4096.Idx) (n : ℕ) (hn : (j 1).val = n) :
    shapeCast S1x4096 v shapeCasts_S4096_S1x4096 j = at1 v n := by
  have h1 : (j 1).val < 4096 := (j 1).isLt
  have h0 : (j 0).val < 1 := (j 0).isLt
  have hlt : n < 4096 := by omega
  rw [shapeCast_apply v shapeCasts_S4096_S1x4096 j (ix1 ⟨n, hlt⟩) (by
    rw [Shape.rowMajor_val_one, Shape.rowMajor_val_two]
    show n = (j 0).val * 4096 + (j 1).val
    omega)]
  exact at1_of_val v _ n rfl

theorem bBlk_apply (c : Dev nD) (t : Fin cfg0.N) (q : Fin 1024) :
    bBlk m c t (ix2 (0 : Fin 1) q) = at1 (bArr m c) (1024 * (t.val / 8 % 4) + q.val) := by
  obtain ⟨-, -, -, -, -, -, e0, e1, -⟩ := index_facts t
  show iblk m c 3 t (ix2 (0 : Fin 1) q) = _
  unfold iblk
  rw [View.read_apply]
  show V m c main_v0 _ = _
  rw [biasRow_eq]
  refine row_apply _ _ _ ?_
  show win0_3.index t (1 : Fin 2) * 1024 + 1 * q.val = _
  rw [e1]; omega

theorem bnBlk_apply (c : Dev nD) (t : Fin cfg0.N) (q : Fin 1024) :
    bnBlk m c t (ix2 (0 : Fin 1) q) = at1 (bnArr m c) (1024 * (t.val / 8 % 4) + q.val) := by
  obtain ⟨-, -, -, -, -, -, -, -, e0, e1, -⟩ := index_facts t
  show iblk m c 4 t (ix2 (0 : Fin 1) q) = _
  unfold iblk
  rw [View.read_apply]
  show V m c main_v1 _ = _
  rw [biasNoiseRow_eq]
  refine row_apply _ _ _ ?_
  show win0_4.index t (1 : Fin 2) * 1024 + 1 * q.val = _
  rw [e1]; omega

end Cert.KernelIdeal.BlockRead

end
-- ==== Proof.CaseValue.lean ====
/-
  What one run of the kernel body leaves behind, as values: in each of its three cases (first stretch of the
  contraction axis; a middle stretch; the last stretch) the accumulator tile ends at the accumulation step's value
  over what it held — over the freshly stored zero tile in the first case — and, in the last case, the output tile
  ends at the finishing step's value over the updated accumulator.
-/
import proofs.«105921_j31825707664106_1_alg».proof.Proof.Gen.KernelIdeal.Frame
import Idealize.ShloMosaic.Lib.Pipeline.Value
import Idealize.ShloMosaic.Lib.Tactic

set_option maxRecDepth 16384

noncomputable section

namespace Cert.KernelIdeal.CaseValue

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First stretch: the accumulator is reset to the zero tile, read back, and the step applied to it. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x512 .f32) (x3 x4 : Vec F S1x1024 .f32) :
    sout0_A_0 c i arg3 harg3 arg4 harg4 arg5 harg5 arg6 harg6 arg7 harg7 arg8 harg8 arg9 harg9 hc0 hc1 x0 x1 x2 x3 x4 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread,
    View.ld_unit_zero (S := S1024x512) hz]

/-- A middle stretch: the step applied to what the accumulator held. -/
theorem acc_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x512 .f32) (x3 x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg9.read_unread,
    View.ld_unit_zero (S := S1024x512) hz, View.ld_unit_zero (S := S1024x1024) hz]

/-- The last stretch leaves the accumulator as a middle one does. -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x512 .f32) (x3 x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x0 x1 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg9.read_unread,
    View.ld_unit_zero (S := S1024x512) hz, View.ld_unit_zero (S := S1024x1024) hz]

/-- The last stretch also writes the output tile: the finishing step over the updated accumulator. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x512 .f32) (x3 x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 x3 x4 (k0_pay2 x0 x1 x2 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.readCov_unit_zero (S := S1024x1024) _ hz,
    View.ld_unit_zero (S := S1024x512) hz, View.ld_unit_zero (S := S1024x1024) hz, View.ld_unit_zero (S := S1x1024) hz]

end Cert.KernelIdeal.CaseValue

end
-- ==== Proof.TileValue.lean ====
/-
  The kernel body's three stored values, read at one index of the [1024, 1024] tile over the extended reals.

  * the reset value is 0 everywhere;
  * the accumulation step adds to the old tile, at (p, q), the 512-term product of row p of the input block with
    row q of the noisy weight block (weight plus its noise, added entry by entry) — the narrowing of both factors
    to sixteen bits is the identity on extended reals;
  * the finishing step adds the noisy bias row's entry q to the tile's entry (p, q).
-/
import proofs.«105921_j31825707664106_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! ## The tile product's operand indices -/

theorem lhs_tile_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_tile_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_tile_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_tile_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tile product into a zero tile, at (p, q): row p of the left block against row q of the right block. -/
theorem tile_product_apply {φ₁ φ₂ : FTy} (l : FVec Ideal S1024x512 φ₁) (r : FVec Ideal S1024x512 φ₂) (p q : Fin 1024) :
    matmul dot_S1024x512_S1024x512_S1024x1024_1_1_0_0_n_n none l r (constant S1024x1024 .f32 0x00000000#32) (ix2 p q)
      = ∑ k : Fin 512, l (ix2 p k) * r (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_tile_0 _ _
    | ⟨1, _⟩ => exact (lhs_tile_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_tile_0 _ _
    | ⟨1, _⟩ => exact (rhs_tile_1 _ _).trans hk)
  rw [el, er]

/-! ## The three stored values -/

/-- The reset value: zero at every entry. -/
theorem reset_apply (j : S1024x1024.Idx) : k0_pay1 (F := Ideal) j = 0 := by
  unfold k0_pay1
  rw [shapeCast_self]
  exact Ideal.ofBits_zero_f32

/-- The accumulation step at (p, q): the old entry plus the block product's entry. -/
theorem accumulate_apply (xb wb nb : Vec Ideal S1024x512 .f32) (acc : Vec Ideal S1024x1024 .f32) (p q : Fin 1024) :
    k0_pay2 (F := Ideal) xb wb nb acc (ix2 p q)
      = acc (ix2 p q) + ∑ k : Fin 512, xb (ix2 p k) * (wb (ix2 q k) + nb (ix2 q k)) := by
  unfold k0_pay2
  rw [shapeCast_self, addf_apply, tile_product_apply]
  rfl

/-- The finishing step at (p, q): the tile's entry plus the noisy bias row's entry q. -/
theorem finish_apply (bb nb : Vec Ideal S1x1024 .f32) (acc : Vec Ideal S1024x1024 .f32) (p q : Fin 1024) :
    k0_pay3 (F := Ideal) bb nb acc (ix2 p q)
      = acc (ix2 p q) + (bb (ix2 (0 : Fin 1) q) + nb (ix2 (0 : Fin 1) q)) := by
  unfold k0_pay3
  rw [shapeCast_self, shapeCast_self, addf_apply, broadcastTo_1b_ab_apply, addf_apply]

end Cert.KernelIdeal.TileValue

end
-- ==== Proof.RunningSum.lean ====
/-
  The accumulator across the grid. Point n works on output tile (n / 32, n / 8 % 4) and on stretch n % 8 of the
  contraction axis; the eight points of a tile follow one another. By induction on n, after point n the accumulator's
  entry (p, q) is the sum of the first 512 * (n % 8 + 1) terms of the contraction for output row 1024 * (n / 32) + p
  and output column 1024 * (n / 8 % 4) + q: the first point of a tile starts from the zero tile, every other point adds
  its stretch to what the point before left. At a tile's last point the output tile is that sum — now all 4096
  terms — plus the noisy bias: the layer's value.
-/
import proofs.«105921_j31825707664106_1_alg».proof.Proof.BlockRead
import proofs.«105921_j31825707664106_1_alg».proof.Proof.CaseValue
import proofs.«105921_j31825707664106_1_alg».proof.Proof.TileValue

noncomputable section

open scoped BigOperators

namespace Cert.KernelIdeal.RunningSum

open Cert.KernelIdeal Cert.KernelIdeal.Gen Idealize.ShloMosaic Idealize.ShloMosaic.TcCoe Idealize.SL.Sem
open Idealize.ShloMosaic.ValueIdx Cert.NoisyLinear Cert.KernelIdeal.BlockRead Cert.KernelIdeal.CaseValue Cert.KernelIdeal.TileValue

variable (m : (ℓ : Loc nD τ sig) → Buf (Elt Ideal) ℓ)

/-- The block product at point n, entry (p, q), is stretch n % 8 of the contraction for that point's output entry. -/
theorem block_product (c : Dev nD) (n : ℕ) (h : n < cfg0.N) (p q : Fin 1024) :
    ∑ k : Fin 512, xBlk m c ⟨n, h⟩ (ix2 p k) * (wBlk m c ⟨n, h⟩ (ix2 q k) + wnBlk m c ⟨n, h⟩ (ix2 q k))
      = stretch (xArr m c) (wArr m c) (wnArr m c) (1024 * (n / 32) + p.val) (1024 * (n / 8 % 4) + q.val) (n % 8) := by
  unfold stretch term
  refine Finset.sum_congr rfl fun k _ => ?_
  rw [xBlk_apply, wBlk_apply, wnBlk_apply]

/-- The accumulation step at point n over any tile. -/
theorem step_apply (c : Dev nD) (n : ℕ) (h : n < cfg0.N) (acc : Vec Ideal S1024x1024 .f32) (p q : Fin 1024) :
    k0_pay2 (F := Ideal) (xBlk m c ⟨n, h⟩) (wBlk m c ⟨n, h⟩) (wnBlk m c ⟨n, h⟩) acc (ix2 p q)
      = acc (ix2 p q)
        + stretch (xArr m c) (wArr m c) (wnArr m c) (1024 * (n / 32) + p.val) (1024 * (n / 8 % 4) + q.val) (n % 8) := by
  rw [accumulate_apply, block_product]

/-- THE INVARIANT: the accumulator after point n. -/
theorem acc_after (c : Dev nD) (n : ℕ) : ∀ (h : n < cfg0.N) (p q : Fin 1024),
    (outsAt0 m c n h).2 (ix2 p q)
      = partialDot (xArr m c) (wArr m c) (wnArr m c) (1024 * (n / 32) + p.val) (1024 * (n / 8 % 4) + q.val) (n % 8 + 1) := by
  induction n using Nat.strong_induction_on with
  | _ n ih =>
    intro h p q
    have hN : n < 64 := lt_of_lt_of_eq h (show cfg0.N = 64 from N_0)
    by_cases h0 : n % 8 = 0
    · have h1 : ¬n % 8 = 7 := by omega
      rw [outsAt0_A m c ⟨n, h⟩ h0 h1]
      dsimp only
      refine (congrFun (acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (xBlk m c (⟨n, h⟩ : Fin cfg0.N)) (wBlk m c (⟨n, h⟩ : Fin cfg0.N)) (wnBlk m c (⟨n, h⟩ : Fin cfg0.N)) (bBlk m c (⟨n, h⟩ : Fin cfg0.N)) (bnBlk m c (⟨n, h⟩ : Fin cfg0.N))) (ix2 p q)).trans ?_
      rw [step_apply, reset_apply, h0, partialDot_one]
    · have hpos : n - 1 < n := by omega
      have e1 : (n - 1) / 32 = n / 32 := by omega
      have e2 : (n - 1) / 8 % 4 = n / 8 % 4 := by omega
      have e3 : (n - 1) % 8 + 1 = n % 8 := by omega
      by_cases h1 : n % 8 = 7
      · rw [outsAt0_C m c ⟨n, h⟩ h0 h1]
        dsimp only
        refine (congrFun (acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (xBlk m c (⟨n, h⟩ : Fin cfg0.N)) (wBlk m c (⟨n, h⟩ : Fin cfg0.N)) (wnBlk m c (⟨n, h⟩ : Fin cfg0.N)) (bBlk m c (⟨n, h⟩ : Fin cfg0.N)) (bnBlk m c (⟨n, h⟩ : Fin cfg0.N)) (outsAt0 m c (n - 1) (Nat.lt_of_le_of_lt (Nat.sub_le _ _) h)).2) (ix2 p q)).trans ?_
        rw [step_apply, ih (n - 1) hpos, e1, e2, e3, ← partialDot_succ]
      · rw [outsAt0_B m c ⟨n, h⟩ h0 h1]
        dsimp only
        refine (congrFun (acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (xBlk m c (⟨n, h⟩ : Fin cfg0.N)) (wBlk m c (⟨n, h⟩ : Fin cfg0.N)) (wnBlk m c (⟨n, h⟩ : Fin cfg0.N)) (bBlk m c (⟨n, h⟩ : Fin cfg0.N)) (bnBlk m c (⟨n, h⟩ : Fin cfg0.N)) (outsAt0 m c (n - 1) (Nat.lt_of_le_of_lt (Nat.sub_le _ _) h)).2) (ix2 p q)).trans ?_
        rw [step_apply, ih (n - 1) hpos, e1, e2, e3, ← partialDot_succ]

/-- At a tile's last point the output tile's entry (p, q) is the layer's value at the tile's entry. -/
theorem out_after (c : Dev nD) (n : ℕ) (h : n < cfg0.N) (h1 : n % 8 = 7) (p q : Fin 1024) (r : Fin 2048) (o : Fin 4096)
    (hr : r.val = 1024 * (n / 32) + p.val) (ho : o.val = 1024 * (n / 8 % 4) + q.val) :
    (outsAt0 m c n h).1 (ix2 p q) = layer (xArr m c) (wArr m c) (wnArr m c) (bArr m c) (bnArr m c) (ix2 r o) := by
  have hN : n < 64 := lt_of_lt_of_eq h (show cfg0.N = 64 from N_0)
  have h0 : ¬n % 8 = 0 := by omega
  have hpos : n - 1 < n := by omega
  have e1 : (n - 1) / 32 = n / 32 := by omega
  have e2 : (n - 1) / 8 % 4 = n / 8 % 4 := by omega
  have e3 : (n - 1) % 8 + 1 = n % 8 := by omega
  rw [outsAt0_C m c ⟨n, h⟩ h0 h1]
  dsimp only
  refine (congrFun (out_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (xBlk m c (⟨n, h⟩ : Fin cfg0.N)) (wBlk m c (⟨n, h⟩ : Fin cfg0.N)) (wnBlk m c (⟨n, h⟩ : Fin cfg0.N)) (bBlk m c (⟨n, h⟩ : Fin cfg0.N)) (bnBlk m c (⟨n, h⟩ : Fin cfg0.N)) (outsAt0 m c (n - 1) (Nat.lt_of_le_of_lt (Nat.sub_le _ _) h)).2) (ix2 p q)).trans ?_
  rw [finish_apply, step_apply, acc_after m c (n - 1) _ p q, e1, e2, e3, ← partialDot_succ, bBlk_apply, bnBlk_apply,
    show n % 8 + 1 = 8 from by omega, ← hr, ← ho]
  exact layer_eq _ _ _ _ _ r o

end Cert.KernelIdeal.RunningSum

end
-- ==== Proof.LayerArray.lean ====
/-
  From tiles to the array. The output tile of point t is written back exactly at a tile's last point (t % 8 = 7), to
  rows 1024 * (t / 32) … and columns 1024 * (t / 8 % 4) … of the result array, and it holds the layer's values at
  those entries. The 2 × 4 tiles cover the [2048, 4096] array — entry (r, o) lies in the tile written back at point
  32 * (r / 1024) + 8 * (o / 1024) + 7 — so after the run the result array IS the layer of the arguments.
-/
import proofs.«105921_j31825707664106_1_alg».proof.Proof.RunningSum
import proofs.«105921_j31825707664106_1_alg».proof.Proof.Gen.KernelIdeal.Value

noncomputable section

namespace Cert.KernelIdeal.LayerArray

open Cert.KernelIdeal Cert.KernelIdeal.Gen Idealize.ShloMosaic Idealize.ShloMosaic.TcCoe Idealize.SL.Sem
open Idealize.ShloMosaic.Pipeline (Dat)
open Idealize.ShloMosaic.ValueIdx Cert.NoisyLinear Cert.KernelIdeal.BlockRead Cert.KernelIdeal.RunningSum

variable (m : (ℓ : Loc nD τ sig) → Buf (Elt Ideal) ℓ) (ρ : Dev nD → PrngReg)

/-- The layer of the argument arrays, as contents of the result array. -/
abbrev result (c : Dev nD) : Buf (Elt Ideal) ((c : Thread nD τ).loc main_v2) :=
  layer (xArr m c) (wArr m c) (wnArr m c) (bArr m c) (bnArr m c)

/-- What a tile's last point writes back is the layer read through that tile. -/
theorem flushed_eq (c : Dev nD) (t : Fin cfg0.N) (hf : (cfg0.win 5).flush t = true) :
    (dats m 0 c).flushed 5 t = ((cfg0.win 5).blk t).view.read (Elt Ideal) (result m c) := by
  have h1 : t.val % 8 = 7 := (flush0_5 t).mp hf
  have hN : t.val < 64 := lt_of_lt_of_eq t.isLt (show cfg0.N = 64 from N_0)
  obtain ⟨-, -, -, -, -, -, -, -, -, -, e0, e1⟩ := index_facts t
  rw [Cert.KernelIdeal.Value.flushed5]
  funext j
  have hj0 : (j 0).val < 1024 := (j 0).isLt
  have hj1 : (j 1).val < 1024 := (j 1).isLt
  have hr : 1024 * (t.val / 32) + (j 0).val < 2048 := by omega
  have ho : 1024 * (t.val / 8 % 4) + (j 1).val < 4096 := by omega
  show (outsAt0 m c t.val t.isLt).1 j = result m c (((cfg0.win 5).blk t).view.emb j)
  have hj : (j : S1024x1024.Idx) = ix2 (⟨(j 0).val, hj0⟩ : Fin 1024) (⟨(j 1).val, hj1⟩ : Fin 1024) :=
    eq_ix2 (n0 := 1024) (n1 := 1024) j
  refine (congrArg (outsAt0 m c t.val t.isLt).1 hj).trans ?_
  refine (out_after m c t.val t.isLt h1 ⟨(j 0).val, hj0⟩ ⟨(j 1).val, hj1⟩ ⟨_, hr⟩ ⟨_, ho⟩ rfl rfl).trans ?_
  refine congrArg (result m c) (funext fun a => Fin.ext ?_)
  match a with
  | ⟨0, _⟩ =>
    show 1024 * (t.val / 32) + (j 0).val = win0_5.index t (0 : Fin 2) * 1024 + 1 * (j 0).val
    rw [e0]; omega
  | ⟨1, _⟩ =>
    show 1024 * (t.val / 8 % 4) + (j 1).val = win0_5.index t (1 : Fin 2) * 1024 + 1 * (j 1).val
    rw [e1]; omega

/-- An entry of the array is in point t's tile iff each coordinate is in the tile's range. -/
theorem mem_tile (t : Fin cfg0.N) (i : S2048x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every entry lies in the tile some last point writes back. -/
theorem covered (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  have hlt : 32 * ((i 0).val / 1024) + 8 * ((i 1).val / 1024) + 7 < cfg0.N := by
    rw [show cfg0.N = 64 from N_0]; omega
  refine ⟨⟨32 * ((i 0).val / 1024) + 8 * ((i 1).val / 1024) + 7, hlt⟩, (flush0_5 _).mpr (by show (32 * ((i 0).val / 1024) + 8 * ((i 1).val / 1024) + 7) % 8 = 7; omega), ?_⟩
  obtain ⟨-, -, -, -, -, -, -, -, -, -, e0, e1⟩ := index_facts ⟨32 * ((i 0).val / 1024) + 8 * ((i 1).val / 1024) + 7, hlt⟩
  rw [mem_tile]
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 1024 ≤ (i 1).val ∧ (i 1).val < win0_5.index _ (1 : Fin 2) * 1024 + 1024
    rw [e1]; dsimp only; omega

/-- So the result array ends holding the layer. -/
theorem final (c : Dev nD) : (dats m 0 c).arrAt 5 cfg0.N = result m c :=
  (dats m 0 c).arrAt_eq_of_cover 5 (result m c) (flushed_eq m c) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.LayerArray

end
-- ==== Proof.RefLayer.lean ====
/-
  The reference program's result, stage by stage, is the layer: its dot product contracts the input's second axis
  with the noisy weight's second axis, and its two broadcasts lay the noisy bias along the rows.
-/
import proofs.«105921_j31825707664106_1_alg».proof.Proof.Gen.ReferenceIdeal.Read
import proofs.«105921_j31825707664106_1_alg».proof.Proof.BlockedDot

noncomputable section

open scoped BigOperators

namespace Cert.ReferenceIdeal.Layer

open Cert.ReferenceIdeal Cert.ReferenceIdeal.Gen Cert.ReferenceIdeal.Read Idealize.ShloMosaic Idealize.ShloMosaic.ValueIdx

/-- Index by index the reference computes `(∑ k, x r k * (w o k + wn o k)) + (b o + bn o)`. -/
theorem result_eq_layer (x0 : (⟨S2048x4096, .f32⟩ : BufTy).Contents (Elt Ideal))
    (x1 x3 : (⟨S4096x4096, .f32⟩ : BufTy).Contents (Elt Ideal)) (x2 x4 : (⟨S4096, .f32⟩ : BufTy).Contents (Elt Ideal)) :
    val_main_v5 (F := Ideal) x0 x1 x2 x3 x4 = Cert.NoisyLinear.layer x0 x1 x3 x2 x4 := by
  funext i
  obtain ⟨r, o, rfl⟩ : ∃ (r : Fin 2048) (o : Fin 4096), i = ix2 r o := ⟨i 0, i 1, eq_ix2 i⟩
  have hl : ∀ k : Fin 4096, lidx_main_v2 (ix2 r o) k = ix2 r k := fun k => funext fun a => by
    match a with | ⟨0, _⟩ => rfl | ⟨1, _⟩ => rfl
  have hr : ∀ k : Fin 4096, ridx_main_v2 (ix2 r o) k = ix2 o k := fun k => funext fun a => by
    match a with | ⟨0, _⟩ => rfl | ⟨1, _⟩ => rfl
  have hb : idx_main_v3 (idx_main_v4 (ix2 r o)) = ix1 o := funext fun a => by
    match a with | ⟨0, _⟩ => rfl
  rw [val_main_v5_apply, val_main_v2_apply, val_main_v4_apply, val_main_v3_apply, val_main_v1_apply, hb]
  simp only [hl, hr, val_main_v0_apply]
  rfl

end Cert.ReferenceIdeal.Layer

end
-- ==== Proof.lean ====
/-
  A noisy linear layer: the kernel against its reference, over the extended reals.

  Both programs take x : [2048, 4096], weight and weight noise : [4096, 4096], bias and bias noise : [4096], and
  return the [2048, 4096] array whose entry (r, o) is

      (∑ k < 4096, x r k * (weight o k + noise o k)) + (bias o + bias noise o).

  The reference forms the noisy weight and the noisy bias, contracts the second axes in one dot product, and adds the
  bias broadcast along the rows. The kernel works tile by tile: for each of the 2 × 4 output tiles of 1024 × 1024 it
  walks the contraction axis in 8 stretches of 512, keeping a running sum in an accumulator tile (reset to zero at a
  tile's first stretch, increased by the stretch's product at every stretch), and at the last stretch it writes the
  accumulator plus the noisy bias row to the output tile. Its two operands are narrowed to sixteen bits before the
  product, which is the identity on extended reals. The two values differ only in how the 4096-term sum is grouped —
  eight consecutive stretches against one sum — and addition of extended reals is associative, so they are equal at
  every input; the finiteness of the inputs is never used.

  The modules: BlockedDot (the layer, and the running sum of a contraction cut into stretches), RefLayer (the
  reference is the layer), TileValue (the kernel's three stored values at an entry), CaseValue (what one body run
  leaves in the accumulator and the output tile), BlockRead (which entries of the arguments a point's blocks hold),
  RunningSum (the accumulator after every point, by induction over the grid), LayerArray (the output tiles cover
  the array, which therefore ends holding the layer). The three frames are the generated ones; nothing was rewritten
  by the idealization, so that claim is trivial.
-/
import proofs.«105921_j31825707664106_1_alg».proof.Defs
import proofs.«105921_j31825707664106_1_alg».proof.Proof.Gen.Kernel
import proofs.«105921_j31825707664106_1_alg».proof.Proof.Gen.Kernel.Skeleton
import proofs.«105921_j31825707664106_1_alg».proof.Proof.Gen.Kernel.Launch
import proofs.«105921_j31825707664106_1_alg».proof.Proof.Gen.Kernel.Points
import proofs.«105921_j31825707664106_1_alg».proof.Proof.Gen.Kernel.Frame
import proofs.«105921_j31825707664106_1_alg».proof.Proof.Gen.KernelIdeal
import proofs.«105921_j31825707664106_1_alg».proof.Proof.Gen.KernelIdeal.Skeleton
import proofs.«105921_j31825707664106_1_alg».proof.Proof.Gen.KernelIdeal.Launch
import proofs.«105921_j31825707664106_1_alg».proof.Proof.Gen.KernelIdeal.Points
import proofs.«105921_j31825707664106_1_alg».proof.Proof.Gen.KernelIdeal.Frame
import proofs.«105921_j31825707664106_1_alg».proof.Proof.Gen.ReferenceIdeal
import proofs.«105921_j31825707664106_1_alg».proof.Proof.Gen.KernelIdeal.Value
import proofs.«105921_j31825707664106_1_alg».proof.Proof.Gen.ReferenceIdeal.Run
import proofs.«105921_j31825707664106_1_alg».proof.Proof.Gen.ReferenceIdeal.Read
import proofs.«105921_j31825707664106_1_alg».proof.Proof.Gen.Pre_finite_inputs
import proofs.«105921_j31825707664106_1_alg».proof.Proof.LayerArray
import proofs.«105921_j31825707664106_1_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their (agreeing) arguments in the result array. -/
theorem algebraic : Cert.algebraic_KernelIdeal_ReferenceIdeal := by
  intro m ρ m' ρ' _ hagree
  refine ⟨fun c => Cert.KernelIdeal.LayerArray.result m c, Cert.KernelIdeal.LayerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Layer.result_eq_layer, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
